-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x56x56x30 : Shape := ⟨4, ![256, 56, 56, 30]⟩
abbrev S_ : Shape := ⟨0, ![]⟩

class Facts : Prop where
  bcast_S_S256x56x56x30 : S_.BroadcastsInDim S256x56x56x30 (![] : Fin 0 → Fin S256x56x56x30.rank)
  reducesTo_S256x56x56x30_S_d0_1_2_3 : S256x56x56x30.ReducesTo [0, 1, 2, 3] S_
  h_S_ : 0 < S_.numel

variable [Facts]

def fn {F : FTy → Type} [FloatOps F] (main_arg0 : FVec F S256x56x56x30 .f32) (main_arg1 : FVec F S256x56x56x30 .f32) : IVec S_ 1 :=
  let main_v0 : FVec F S256x56x56x30 .f32 := Host.absf main_arg0
  let main_cst : FVec F S_ .f32 := constant S_ .f32 0x7F800000#32
  let main_v1 : FVec F S256x56x56x30 .f32 := broadcastInDim S256x56x56x30 ![] bcast_S_S256x56x56x30 main_cst
  let main_v2 : IVec S256x56x56x30 1 := cmpf .olt main_v0 main_v1
  let main_c : IVec S_ 1 := constantI S_ 1 1#1
  let main_v3 : IVec S_ 1 := (fun x v => Host.reduce IntOp.andi x v reducesTo_S256x56x56x30_S_d0_1_2_3 h_S_) main_v2 main_c
  let main_v4 : FVec F S256x56x56x30 .f32 := Host.absf main_arg1
  let main_cst_0 : FVec F S_ .f32 := constant S_ .f32 0x7F800000#32
  let main_v5 : FVec F S256x56x56x30 .f32 := broadcastInDim S256x56x56x30 ![] bcast_S_S256x56x56x30 main_cst_0
  let main_v6 : IVec S256x56x56x30 1 := cmpf .olt main_v4 main_v5
  let main_c_1 : IVec S_ 1 := constantI S_ 1 1#1
  let main_v7 : IVec S_ 1 := (fun x v => Host.reduce IntOp.andi x v reducesTo_S256x56x56x30_S_d0_1_2_3 h_S_) main_v6 main_c_1
  let main_v8 : IVec S_ 1 := andi main_v3 main_v7
  main_v8
-- ==== Kernel.lean ====
abbrev S256x56x56x30 : Shape := ⟨4, ![256, 56, 56, 30]⟩
abbrev S1x1 : Shape := ⟨2, ![1, 1]⟩
abbrev S8x56x56x30 : Shape := ⟨4, ![8, 56, 56, 30]⟩
abbrev S8x56x56x1 : Shape := ⟨4, ![8, 56, 56, 1]⟩
abbrev S8x56x56 : Shape := ⟨3, ![8, 56, 56]⟩
abbrev S8x56x56x2 : Shape := ⟨4, ![8, 56, 56, 2]⟩
abbrev S8x56x56x25 : Shape := ⟨4, ![8, 56, 56, 25]⟩
abbrev S8x56 : Shape := ⟨2, ![8, 56]⟩
abbrev S8 : Shape := ⟨1, ![8]⟩
abbrev S1x8 : Shape := ⟨2, ![1, 8]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S256x56x56x30, .f32⟩
  | .hbm, ⟨1, _⟩ => ⟨S256x56x56x30, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S8x56x56x30, .f32⟩
  | .local _ .vmem, ⟨1, _⟩ => ⟨S8x56x56x30, .f32⟩
  | .local _ .vmem, ⟨2, _⟩ => ⟨S8x56x56x30, .f32⟩
  | .local _ .vmem, ⟨3, _⟩ => ⟨S8x56x56x30, .f32⟩
  | .local _ .vmem, ⟨4, _⟩ => ⟨S1x1, .f32⟩
  | .local _ .vmem, ⟨5, _⟩ => ⟨S1x1, .f32⟩
  | _, _ => ⟨S256x56x56x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v58 : BitVec 1 := Scalar.cmpi .eq arg0 c31_i32
  let v59 : BitVec 32 := Scalar.extui v58
  let c0_i32_21 : BitVec 32 := 0#32
  let v60 : BitVec 1 := Scalar.cmpi .ne v59 c0_i32_21
  v60

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x56x56x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x56x56x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x56x56x30_S8x56x56x30_0_0_0_0 : ∀ a, (![0, 0, 0, 0] : Fin 4 → Nat) a + S8x56x56x30.size a ≤ S8x56x56x30.size a
  h_S8x56x56x30 : 0 < S8x56x56x30.numel
  slices_S8x56x56x30_o0_0_0_4_S8x56x56x1 : S8x56x56x30.Slices ![0, 0, 0, 4] S8x56x56x1
  shapeCasts_S8x56x56x1_S8x56x56 : S8x56x56x1.ShapeCasts S8x56x56
  natLt_1_32 : 1 < 32
  slices_S8x56x56x30_o0_0_0_0_S8x56x56x2 : S8x56x56x30.Slices ![0, 0, 0, 0] S8x56x56x2
  reduces_S8x56x56x2_S8x56x56 : S8x56x56x2.Reduces [3] S8x56x56
  slices_S8x56x56x30_o0_0_0_2_S8x56x56x2 : S8x56x56x30.Slices ![0, 0, 0, 2] S8x56x56x2
  slices_S8x56x56x30_o0_0_0_5_S8x56x56x25 : S8x56x56x30.Slices ![0, 0, 0, 5] S8x56x56x25
  reduces_S8x56x56x25_S8x56x56 : S8x56x56x25.Reduces [3] S8x56x56
  reduces_S8x56x56_S8x56 : S8x56x56.Reduces [2] S8x56
  reduces_S8x56_S8 : S8x56.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x56x56x30.size a ≤ S256x56x56x30.size a
  hwx0_0 : ∀ i : grid0.Coords, EltTy.bits .f32 = 32 ∨ (Rect.block (s := S256x56x56x30) S8x56x56x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x56x56x30.size a ≤ S256x56x56x30.size a
  hwx0_1 : ∀ i : grid0.Coords, EltTy.bits .f32 = 32 ∨ (Rect.block (s := S256x56x56x30) S8x56x56x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8x56x56x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x56x56x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x56x56x30 : Shape := ⟨4, ![256, 56, 56, 30]⟩
abbrev S256x56x56x1 : Shape := ⟨4, ![256, 56, 56, 1]⟩
abbrev S256x56x56 : Shape := ⟨3, ![256, 56, 56]⟩
abbrev S_ : Shape := ⟨0, ![]⟩
abbrev S256x56x56x2 : Shape := ⟨4, ![256, 56, 56, 2]⟩
abbrev S256x56x56x25 : Shape := ⟨4, ![256, 56, 56, 25]⟩

abbrev nBuf : Space → Nat
  | .hbm => 53
  | .vmem => 0
  | .smem => 0
  | _ => 0

abbrev bufTy : (tb : Table) → Fin (tcTables nBuf tb) → BufTy
  | .hbm, ⟨0, _⟩ => ⟨S256x56x56x30, .f32⟩
  | .hbm, ⟨1, _⟩ => ⟨S256x56x56x30, .f32⟩
  | .hbm, ⟨2, _⟩ => ⟨S256x56x56x1, .f32⟩
  | .hbm, ⟨3, _⟩ => ⟨S256x56x56, .f32⟩
  | .hbm, ⟨4, _⟩ => ⟨S_, .f32⟩
  | .hbm, ⟨5, _⟩ => ⟨S256x56x56, .f32⟩
  | .hbm, ⟨6, _⟩ => ⟨S256x56x56, .i1⟩
  | .hbm, ⟨7, _⟩ => ⟨S256x56x56, .f32⟩
  | .hbm, ⟨8, _⟩ => ⟨S_, .f32⟩
  | .hbm, ⟨9, _⟩ => ⟨S256x56x56, .f32⟩
  | .hbm, ⟨10, _⟩ => ⟨S256x56x56, .f32⟩
  | .hbm, ⟨11, _⟩ => ⟨S256x56x56x2, .f32⟩
  | .hbm, ⟨12, _⟩ => ⟨S256x56x56x2, .f32⟩
  | .hbm, ⟨13, _⟩ => ⟨S256x56x56x2, .f32⟩
  | .hbm, ⟨14, _⟩ => ⟨S256x56x56x2, .f32⟩
  | .hbm, ⟨15, _⟩ => ⟨S_, .f32⟩
  | .hbm, ⟨16, _⟩ => ⟨S256x56x56, .f32⟩
  | .hbm, ⟨17, _⟩ => ⟨S256x56x56x2, .f32⟩
  | .hbm, ⟨18, _⟩ => ⟨S256x56x56x2, .f32⟩
  | .hbm, ⟨19, _⟩ => ⟨S256x56x56x2, .f32⟩
  | .hbm, ⟨20, _⟩ => ⟨S256x56x56x2, .f32⟩
  | .hbm, ⟨21, _⟩ => ⟨S256x56x56x2, .f32⟩
  | .hbm, ⟨22, _⟩ => ⟨S256x56x56x2, .f32⟩
  | .hbm, ⟨23, _⟩ => ⟨S_, .f32⟩
  | .hbm, ⟨24, _⟩ => ⟨S256x56x56, .f32⟩
  | .hbm, ⟨25, _⟩ => ⟨S256x56x56, .f32⟩
  | .hbm, ⟨26, _⟩ => ⟨S_, .f32⟩
  | .hbm, ⟨27, _⟩ => ⟨S256x56x56, .f32⟩
  | .hbm, ⟨28, _⟩ => ⟨S256x56x56, .f32⟩
  | .hbm, ⟨29, _⟩ => ⟨S256x56x56x1, .f32⟩
  | .hbm, ⟨30, _⟩ => ⟨S256x56x56, .f32⟩
  | .hbm, ⟨31, _⟩ => ⟨S256x56x56x1, .f32⟩
  | .hbm, ⟨32, _⟩ => ⟨S256x56x56, .f32⟩
  | .hbm, ⟨33, _⟩ => ⟨S256x56x56, .f32⟩
  | .hbm, ⟨34, _⟩ => ⟨S256x56x56, .f32⟩
  | .hbm, ⟨35, _⟩ => ⟨S256x56x56x25, .f32⟩
  | .hbm, ⟨36, _⟩ => ⟨S256x56x56x25, .f32⟩
  | .hbm, ⟨37, _⟩ => ⟨S256x56x56x25, .f32⟩
  | .hbm, ⟨38, _⟩ => ⟨S256x56x56x25, .f32⟩
  | .hbm, ⟨39, _⟩ => ⟨S_, .f32⟩
  | .hbm, ⟨40, _⟩ => ⟨S256x56x56, .f32⟩
  | .hbm, ⟨41, _⟩ => ⟨S256x56x56, .f32⟩
  | .hbm, ⟨42, _⟩ => ⟨S256x56x56, .f32⟩
  | .hbm, ⟨43, _⟩ => ⟨S256x56x56, .f32⟩
  | .hbm, ⟨44, _⟩ => ⟨S_, .f32⟩
  | .hbm, ⟨45, _⟩ => ⟨S256x56x56, .f32⟩
  | .hbm, ⟨46, _⟩ => ⟨S256x56x56, .f32⟩
  | .hbm, ⟨47, _⟩ => ⟨S256x56x56, .f32⟩
  | .hbm, ⟨48, _⟩ => ⟨S256x56x56, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S256x56x56x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩

abbrev nD : Nat := 1
abbrev τ : Topo := Topo.v7x

variable {F : FTy → Type} [FloatOps F]

class Facts₀ : Prop where
  slices_S256x56x56x30_S256x56x56x1_0_0_0_4 : S256x56x56x30.Slices ![0, 0, 0, 4] S256x56x56x1
  shapeCasts_S256x56x56x1_S256x56x56 : S256x56x56x1.ShapeCasts S256x56x56
  bcast_S_S256x56x56 : S_.BroadcastsInDim S256x56x56 (![] : Fin 0 → Fin S256x56x56.rank)
  slices_S256x56x56x30_S256x56x56x2_0_0_0_0 : S256x56x56x30.Slices ![0, 0, 0, 0] S256x56x56x2
  reducesTo_S256x56x56x2_S256x56x56_d3 : S256x56x56x2.ReducesTo [3] S256x56x56
  h_S_ : 0 < S_.numel
  slices_S256x56x56x30_S256x56x56x2_0_0_0_2 : S256x56x56x30.Slices ![0, 0, 0, 2] S256x56x56x2
  slices_S256x56x56x30_S256x56x56x25_0_0_0_5 : S256x56x56x30.Slices ![0, 0, 0, 5] S256x56x56x25
  reducesTo_S256x56x56x25_S256x56x56_d3 : S256x56x56x25.ReducesTo [3] S256x56x56
  reducesTo_S256x56x56_S_d0_1_2 : S256x56x56.ReducesTo [0, 1, 2] S_

variable [Facts₀]

class Facts : Prop extends Facts₀ where

variable [Facts]
-- ==== Proof.Accum.lean ====
/-
  What one grid point leaves in the accumulator.

  The kernel keeps a one-entry accumulator between its 32 grid points.  At each point it reads a block of 8 images
  of the predictions and of the targets and stores back  acc + (the block's summed loss):  at the first point after
  storing zero into the accumulator, at every later point over what the point before left; at the last point it also
  copies the accumulator, as just stored, into the output block.  The lemmas below read the run's stores back as
  values: each case's accumulator (and the last case's output block) is one function `step` of the two input blocks
  and of the accumulator's previous contents.  They hold at every float instance.
-/
import proofs.«103663_j23089744183399_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Accum

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The accumulator after a point: its previous contents `acc` plus the summed loss of the block pair `(x0, x1)`. -/
abbrev step (x0 x1 : Vec F S8x56x56x30 .f32) (acc : Vec F S1x1 .f32) : Vec F S1x1 .f32 :=
  k0_pay1 (k0_pay4 x1) (k0_pay5 x0 x1) (k0_pay6 x0 x1) acc

/-- The zero the first point stores into the accumulator before it accumulates. -/
abbrev zeroAcc : Vec F S1x1 .f32 := k0_pay2

/-- A LATER POINT BUT THE LAST: the accumulator holding `xs0` ends at `step x0 x1 xs0`: one store, whose value reads the
    two input blocks whole and the accumulator whole. -/
theorem acc_B (c : Dev nD) (i : grid0.Coords) (a1 : Memref sig .tc .vmem S8x56x56x30 .f32) (h1 : a1.IsWhole) (a2 : Memref sig .tc .vmem S8x56x56x30 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i) (x0 x1 : Vec F S8x56x56x30 .f32) (xs0 : Vec F S1x1 .f32) :
    sout0_B_0 c i a1 h1 a2 h2 a3 h3 a4 h4 hc0 hc1 x0 x1 xs0 = step x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread, View.ld_unit_zero (S := S1x1) hz2,
    View.ld_unit_zero (S := S8x56x56x30) hz4]

/-- THE FIRST POINT: the accumulator ends at `step x0 x1 zeroAcc`: the zero is stored, read back, and accumulated into. -/
theorem acc_A (c : Dev nD) (i : grid0.Coords) (a1 : Memref sig .tc .vmem S8x56x56x30 .f32) (h1 : a1.IsWhole) (a2 : Memref sig .tc .vmem S8x56x56x30 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i) (x0 x1 : Vec F S8x56x56x30 .f32) :
    sout0_A_0 c i a1 h1 a2 h2 a3 h3 a4 h4 hc0 hc1 x0 x1 = step x0 x1 zeroAcc := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S8x56x56x30) hz4]

/-- THE LAST POINT, the accumulator: as at any later point. -/
theorem acc_C (c : Dev nD) (i : grid0.Coords) (a1 : Memref sig .tc .vmem S8x56x56x30 .f32) (h1 : a1.IsWhole) (a2 : Memref sig .tc .vmem S8x56x56x30 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x0 x1 : Vec F S8x56x56x30 .f32) (xs0 : Vec F S1x1 .f32) :
    sout0_C_0 c i a1 h1 a2 h2 a3 h3 a4 h4 hc0 hc1 x0 x1 xs0 = step x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S1x1) hz2,
    View.ld_unit_zero (S := S8x56x56x30) hz4]

/-- THE LAST POINT, the output block: the accumulator as just stored, read back and copied. -/
theorem out_C (c : Dev nD) (i : grid0.Coords) (a1 : Memref sig .tc .vmem S8x56x56x30 .f32) (h1 : a1.IsWhole) (a2 : Memref sig .tc .vmem S8x56x56x30 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x0 x1 : Vec F S8x56x56x30 .f32) (xs0 : Vec F S1x1 .f32) :
    out0_C_2 c i a1 h1 a2 h2 a3 h3 a4 h4 hc0 hc1 x0 x1 xs0 = step x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2, View.readCov_unit_zero (S := S1x1) _ hz2]
  simp only [View.readAt_eq_ld, h1.read_unread, h2.read_unread, h4.read_unread, View.ld_unit_zero (S := S1x1) hz2,
    View.ld_unit_zero (S := S8x56x56x30) hz4]

end Cert.KernelIdeal.Accum

end
-- ==== Proof.Result.lean ====
/-
  The kernel's result.

  Over its 32 grid points the kernel folds `step` from the zero accumulator, point t consuming images 8t .. 8t+7;
  only the last point writes the output block back, and that block is the whole one-entry result array.  After the
  region the program reshapes the entry to a scalar and divides it by 256.  So the result is a function of the
  accumulator after the last point, and that accumulator is what the generated frame's point-by-point contents are,
  by induction on the point.
-/
import proofs.«103663_j23089744183399_1_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (m : (ℓ : Loc nD τ sig) → Buf (Elt F) ℓ) (ρ : Dev nD → PrngReg)

/-- The accumulator after point `n`: `step` folded from the zero over the block pairs of points `0 .. n`. -/
def accAfter (c : Dev nD) : (n : ℕ) → n < cfg0.N → Vec F S1x1 .f32
  | 0, h => step (iblk m c 0 ⟨0, h⟩) (iblk m c 1 ⟨0, h⟩) zeroAcc
  | n + 1, h => step (iblk m c 0 ⟨n + 1, h⟩) (iblk m c 1 ⟨n + 1, h⟩) (accAfter c n (Nat.lt_of_succ_lt h))

/-- What the carried accumulator holds after point `n` is that fold: by induction on the point, the first point in the
    first case, the last in the last, every other in the middle one. -/
theorem carried_eq (c : Dev nD) : ∀ (n : ℕ) (h : n < cfg0.N), (outsAt0 m c n h).2 = accAfter m c n h
  | 0, h => by
    rw [outsAt0_A m c ⟨0, h⟩ rfl (by dsimp only; omega)]
    dsimp only
    exact acc_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [acc_C]
      show step _ _ (outsAt0 m c n _).2 = step _ _ (accAfter m c n _)
      rw [carried_eq c n]
    · rw [outsAt0_B m c ⟨n + 1, h⟩ h0 h1]
      dsimp only
      rw [acc_B]
      show step _ _ (outsAt0 m c n _).2 = step _ _ (accAfter m c n _)
      rw [carried_eq c n]

/-- The last grid point. -/
abbrev tLast : Fin cfg0.N := ⟨31, by rw [show cfg0.N = 32 from N_0]; decide⟩

/-- The accumulator after the last point, as contents of the one-entry result array of the region. -/
abbrev finalAcc (c : Dev nD) : Buf (Elt F) ((c : Thread nD τ).loc main_v0) := accAfter m c 31 tLast.isLt

/-- The output block after the last point is the accumulator after it (the copy of what was just stored). -/
theorem out_last (c : Dev nD) : (outsAt0 m c tLast.val tLast.isLt).1 = finalAcc m c := by
  rw [outsAt0_C m c tLast (by decide) (by decide)]
  dsimp only
  rw [out_C]
  show step _ _ (outsAt0 m c 30 _).2 = step _ _ (accAfter m c 30 _)
  rw [carried_eq m c 30]

/-- The one write-back, at the last point, writes it: the block at index (0, 0) of a [1, 1] array is the array. -/
theorem flushed_eq (c : Dev nD) (t : Fin cfg0.N) (hf : (cfg0.win 2).flush t = true) :
    (dats m 0 c).flushed 2 t = ((cfg0.win 2).blk t).view.read (Elt F) (finalAcc m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last]
  have hz' : (fun a => win0_2.index tLast a * main_v0.ty.shape.size a) = fun _ => 0 :=
    funext fun a => by fin_cases a <;> decide
  exact (Memref.read_access_unit_zero (Elt F) main_v0 hz' (fun a => by rw [congrFun hz' a]; simp) (finalAcc m c)).symm

/-- So the region's result array ends holding the accumulator after the last point: that point's block covers it. -/
theorem final_out (c : Dev nD) : (dats m 0 c).arrAt 2 cfg0.N = finalAcc m c :=
  (dats m 0 c).arrAt_eq_of_cover 2 (finalAcc m c) (flushed_eq m c) fun i =>
    ⟨tLast, (flush0_2 tLast).mpr rfl, by
      show i ∈ ((View.whole main_v0).slice (win0_2.rect tLast)).set
      rw [View.set_slice_whole, Rect.mem_set_unit]
      intro a
      have e0 : win0_2.index tLast a * win0_2.size a = 0 := by fin_cases a <;> decide +kernel
      have e1 : win0_2.xsize (grid0.coords tLast) a = 1 := by fin_cases a <;> decide +kernel
      have hi : (i a : Nat) < 1 := by have := (i a).isLt; fin_cases a <;> exact this
      show win0_2.index tLast a * win0_2.size a ≤ (i a : Nat) ∧ (i a : Nat) < win0_2.index tLast a * win0_2.size a + win0_2.xsize (grid0.coords tLast) a
      rw [e0, e1]; omega⟩

/-- THE RESULT: the final accumulator's entry as a scalar, divided by 256 (the three host operations after the region). -/
def result (c : Dev nD) : Buf (Elt F) ((c : Thread nD τ).loc main_v2) :=
  Host.divf (shapeCast S_ (finalAcc m c) shapeCasts_S1x1_S_) (constant S_ .f32 0x43800000#32)

/-- The host operations after the region, applied to the region's result array, give `result`. -/
theorem tail_eq (c : Dev nD) : Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = finalAcc m c := (Pipeline.withArrays_arr spec0 launch0.win.arr_inj c _ _ 2).trans (final_out m c)
  rw [e]
  rfl

/-- THE RUN, READ: every weakly fair execution ends with the result buffer at `result` and the two arguments unchanged. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 rfl (by intro w; fin_cases w <;> decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Accum

end
-- ==== Proof.Spec.lean ====
/-
  The loss both programs compute, as mathematics over the extended reals.

  A cell is one position (image, row, column) of a 56 x 56 grid; it carries 30 predicted channels p and 30 target
  channels t.  With the indicator o = 1 if t 4 = 1 and 0 otherwise, its loss is

      o * ((5 * (sum_{k<2} (p k - t k)^2 + sum_{k<2} (sqrt (p (2+k)) - sqrt (t (2+k)))^2) + (p 4 - t 4)^2)
             + sum_{k<25} (p (5+k) - t (5+k))^2)
        + (1 - o) * (1/2 * (p 4 - t 4)^2),

  squares written as products, every constant the exact dyadic its bit pattern denotes.  The result is the sum of the
  cells' losses over all images, rows and columns, divided by 256.

  The one law used: a sum over 256 images is the sum, over 32 consecutive groups of 8 images, of the groups' sums.  It is
  a regrouping of a finite sum in a commutative monoid, so it holds for all extended reals, infinite ones included.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.CellLoss

open Idealize.ShloMosaic Idealize.ShloMosaic.ValueIdx

/-- Channel 0 + k (the box centre). -/
abbrev chXY (k : Fin 2) : Fin 30 := ⟨0 + k.val, by omega⟩
/-- Channel 2 + k (the box extent, compared through square roots). -/
abbrev chWH (k : Fin 2) : Fin 30 := ⟨2 + k.val, by omega⟩
/-- Channel 5 + k (the 25 class scores). -/
abbrev chCls (k : Fin 25) : Fin 30 := ⟨5 + k.val, by omega⟩
/-- Channel 4 (the objectness score). -/
abbrev chObj : Fin 30 := ⟨4, by omega⟩

/-- The indicator of an object cell: 1 where the target's objectness equals 1, else 0. -/
def obj (t4 : EReal) : EReal := (((Ideal.cmp .oeq t4 (Ideal.ofBits .f32 0x3F800000#32)).toNat : ℝ) : EReal)

/-- The squared confidence error of a cell. -/
def conf (p t : Fin 30 → EReal) : EReal := (p chObj - t chObj) * (p chObj - t chObj)

/-- The coordinate, confidence and class terms an object cell is charged. -/
def objTerm (p t : Fin 30 → EReal) : EReal :=
  (Ideal.ofBits .f32 0x40A00000#32
      * ((∑ k : Fin 2, (p (chXY k) - t (chXY k)) * (p (chXY k) - t (chXY k)))
        + ∑ k : Fin 2, (Ideal.sqrt (p (chWH k)) - Ideal.sqrt (t (chWH k))) * (Ideal.sqrt (p (chWH k)) - Ideal.sqrt (t (chWH k))))
    + conf p t)
  + ∑ k : Fin 25, (p (chCls k) - t (chCls k)) * (p (chCls k) - t (chCls k))

/-- One cell's loss. -/
def cell (p t : Fin 30 → EReal) : EReal :=
  obj (t chObj) * objTerm p t
    + (Ideal.ofBits .f32 0x3F800000#32 - obj (t chObj)) * (Ideal.ofBits .f32 0x3F000000#32 * conf p t)

/-- The 30 channels of cell (b, r, c) of an array of n images. -/
abbrev chans {n : Nat} (X : (⟨4, ![n, 56, 56, 30]⟩ : Shape).Idx → EReal) (b : Fin n) (r c : Fin 56) : Fin 30 → EReal :=
  fun d => X (ix4 b r c d)

/-- The cells' losses of an array of n images, summed over images, rows and columns. -/
def total {n : Nat} (P T : (⟨4, ![n, 56, 56, 30]⟩ : Shape).Idx → EReal) : EReal :=
  ∑ b : Fin n, ∑ r : Fin 56, ∑ c : Fin 56, cell (chans P b r c) (chans T b r c)

/-- Group g of 8 consecutive images of an array of 256. -/
abbrev group (X : (⟨4, ![256, 56, 56, 30]⟩ : Shape).Idx → EReal) (g : Fin 32) :
    (⟨4, ![8, 56, 56, 30]⟩ : Shape).Idx → EReal :=
  fun j => X (ix4 (⟨8 * g.val + (j 0).val, by have := g.isLt; have h0 : (j 0).val < 8 := (j 0).isLt; omega⟩ : Fin 256) (j 1) (j 2) (j 3))

/-- A sum over 256 images is the sum over 32 groups of the sums over the 8 images of each group. -/
theorem sum_groups {M : Type*} [AddCommMonoid M] (f : Fin 256 → M) :
    ∑ B : Fin 256, f B = ∑ g : Fin 32, ∑ b : Fin 8, f ⟨8 * g.val + b.val, by have := g.isLt; have := b.isLt; omega⟩ := by
  rw [← Fintype.sum_prod_type' (f := fun (g : Fin 32) (b : Fin 8) => f ⟨8 * g.val + b.val, by have := g.isLt; have := b.isLt; omega⟩)]
  refine (Equiv.sum_comp (finProdFinEquiv (m := 32) (n := 8)) f).symm.trans ?_
  refine Finset.sum_congr rfl fun x _ => congrArg f (Fin.ext ?_)
  show x.2.val + 8 * x.1.val = 8 * x.1.val + x.2.val
  omega

/-- The total over 256 images is the sum of the 32 groups' totals. -/
theorem total_groups (P T : (⟨4, ![256, 56, 56, 30]⟩ : Shape).Idx → EReal) :
    total P T = ∑ g : Fin 32, total (group P g) (group T g) := by
  unfold total
  rw [sum_groups]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- THE LOSS: the cells' losses of 256 images summed from zero, divided by 256. -/
def loss (P T : (⟨4, ![256, 56, 56, 30]⟩ : Shape).Idx → EReal) : EReal :=
  Ideal.div (Ideal.ofBits .f32 0x00000000#32 + total P T) (Ideal.ofBits .f32 0x43800000#32)

end Cert.CellLoss

end
-- ==== Proof.Layout.lean ====
/-
  Reading an array of cells at coordinates.

  A rank-4 array [n, 56, 56, 30] holds, for image b, row r and column c, a cell's 30 channels along its last axis.
  The lemmas here read three operations at an index written by its coordinates: a cut along the last axis
  (channel o + j of the source is channel j of the cut), the cast that forgets a last axis of extent one, and
  the index a one-axis sum ranges over (the summed coordinate put back in its place).
-/
import Idealize.ShloMosaic.Lib.ValueLayout
import Idealize.ShloMosaic.PureOps.Ideal.Laws

namespace Cert.CellLoss

open Idealize.ShloMosaic Idealize.ShloMosaic.ValueIdx

variable {α : Type}

/-- A rank-4 array cut along its last axis from `o` reads, at `(a, b, c, j)`, the source at `(a, b, c, k)` with `k = o + j`. -/
theorem slice4_last_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- `slice4_last_apply` with the source channel written out. -/
theorem slice4_last_eq {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, Nat.lt_of_lt_of_le (Nat.add_lt_add_left j.isLt o) (h.2 3)⟩) :=
  slice4_last_apply o X h a b c j _ rfl

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- Summing a rank-4 array along its last axis: over `(a, b, c)` the sum ranges over `(a, b, c, k)`. -/
theorem lift4_last {n0 n1 n2 n3 : Nat} (h : (⟨4, ![n0, n1, n2, n3]⟩ : Shape).Reduces [3] ⟨3, ![n0, n1, n2]⟩)
    (a : Fin n0) (b : Fin n1) (c : Fin n2) (k : Fin n3) : h.lift (ix3 a b c) k = ix4 a b c k :=
  funext fun ax => Fin.ext (by match ax with | ⟨0, _⟩ => rfl | ⟨1, _⟩ => rfl | ⟨2, _⟩ => rfl | ⟨3, _⟩ => rfl)

/-- Summing a rank-3 array along its last axis: over `(a, b)` the sum ranges over `(a, b, k)`. -/
theorem lift3_last {n0 n1 n2 : Nat} (h : (⟨3, ![n0, n1, n2]⟩ : Shape).Reduces [2] ⟨2, ![n0, n1]⟩)
    (a : Fin n0) (b : Fin n1) (k : Fin n2) : h.lift (ix2 a b) k = ix3 a b k :=
  funext fun ax => Fin.ext (by match ax with | ⟨0, _⟩ => rfl | ⟨1, _⟩ => rfl | ⟨2, _⟩ => rfl)

/-- Summing a matrix along its rows: over `a` the sum ranges over `(a, k)`. -/
theorem lift2_last {n0 n1 : Nat} (h : (⟨2, ![n0, n1]⟩ : Shape).Reduces [1] ⟨1, ![n0]⟩)
    (a : Fin n0) (k : Fin n1) : h.lift (ix1 a) k = ix2 a k :=
  funext fun ax => Fin.ext (by match ax with | ⟨0, _⟩ => rfl | ⟨1, _⟩ => rfl)

/-- Over the extended reals, the f32 sum from zero of a rank-4 array along its last axis is, at `(a, b, c)`, the sum over
    `k` of its entries `(a, b, c, k)`. (The accumulator's neutrality is stated as the equation of words a printed program
    carries.) -/
theorem sum4_last_apply {n0 n1 n2 n3 : Nat} (v : FVec Ideal ⟨4, ![n0, n1, n2, n3]⟩ .f32)
    (h : (⟨4, ![n0, n1, n2, n3]⟩ : Shape).Reduces [3] ⟨3, ![n0, n1, n2]⟩) (hφ : FKind.Formats .f32)
    (hacc : (0x00000000#32 : BitVec 32) = 0x00000000#32) (a : Fin n0) (b : Fin n1) (c : Fin n2) :
    multiReduction .add [3] ⟨3, ![n0, n1, n2]⟩ v 0x00000000#32 h hφ hacc (ix3 a b c) = ∑ k : Fin n3, v (ix4 a b c k) :=
  (Ideal.multiReduction_add_single v 0x00000000#32 h hφ hacc (ix3 a b c)).trans
    (Finset.sum_congr rfl fun k _ => congrArg v (lift4_last h a b c k))

/-- The same for a rank-3 array: at `(a, b)`, the sum over `k` of its entries `(a, b, k)`. -/
theorem sum3_last_apply {n0 n1 n2 : Nat} (v : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (a : Fin n0) (b : Fin n1) :
    multiReduction .add [2] ⟨2, ![n0, n1]⟩ v 0x00000000#32 h hφ hacc (ix2 a b) = ∑ k : Fin n2, v (ix3 a b k) :=
  (Ideal.multiReduction_add_single v 0x00000000#32 h hφ hacc (ix2 a b)).trans
    (Finset.sum_congr rfl fun k _ => congrArg v (lift3_last h a b k))

/-- The same for a matrix: at `a`, the sum over `k` of its row `a`. -/
theorem sum2_last_apply {n0 n1 : Nat} (v : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (a : Fin n0) :
    multiReduction .add [1] ⟨1, ![n0]⟩ v 0x00000000#32 h hφ hacc (ix1 a) = ∑ k : Fin n1, v (ix2 a k) :=
  (Ideal.multiReduction_add_single v 0x00000000#32 h hφ hacc (ix1 a)).trans
    (Finset.sum_congr rfl fun k _ => congrArg v (lift2_last h a k))

/-- A square root taken entry by entry, read at an entry. -/
theorem sqrt_at {φ : FTy} {s : Shape} (v : FVec Ideal s φ) (i : s.Idx) : sqrt v i = Ideal.sqrt (v i) := rfl

/-- A one-bit word widened to 32 bits and read as a signed integer is the bit itself, so it converts to the same real
    whether it is read signed after widening or unsigned as it is. -/
theorem widen_bit_real (w : BitVec 1) : (((w.setWidth 32).toInt : ℝ) : EReal) = ((w.toNat : ℝ) : EReal) := by
  have e : (w.setWidth 32).toInt = (w.toNat : ℤ) := by revert w; decide
  rw [e, Int.cast_natCast]

end Cert.CellLoss
-- ==== Proof.BlockLoss.lean ====
/-
  One grid point's contribution, over the extended reals.

  At a grid point the kernel holds a block of 8 images of the predictions and of the targets.  Cell by cell it forms
  the indicator o (a comparison widened to a 32-bit integer and converted: 0 or 1), the confidence error, the
  term an object cell is charged, and the cell's loss; then it sums the losses along columns, along rows, and over
  the 8 images, and adds the result to the accumulator.  Read at the extended reals each of these is the matching
  term of the specification, so a point turns an accumulator `acc` into `acc + total` of the block pair.
-/
import proofs.«103663_j23089744183399_1_alg».proof.Proof.Accum
import proofs.«103663_j23089744183399_1_alg».proof.Proof.Spec
import proofs.«103663_j23089744183399_1_alg».proof.Proof.Layout

noncomputable section

open Idealize.ShloMosaic Idealize.ShloMosaic.ValueIdx

namespace Cert.KernelIdeal.Accum

open Cert.KernelIdeal Cert.KernelIdeal.Gen Cert.CellLoss

/-- The indicator at cell `(b, r, c)`: the comparison of the target's objectness with 1, as 0 or 1. -/
theorem mask_at (x1 : Vec Ideal S8x56x56x30 .f32) (b : Fin 8) (r c : Fin 56) :
    k0_pay3 (F := Ideal) x1 (ix3 b r c) = obj (x1 (ix4 b r c chObj)) := by
  unfold k0_pay3
  simp only [sitofp_apply, extui_apply, cmpf_apply, broadcast_apply]
  rw [shapeCast_abc1_abc_apply, slice4_last_apply 4 x1 _ b r c (0 : Fin 1) chObj rfl]
  exact widen_bit_real _

/-- The squared confidence error at cell `(b, r, c)`. -/
theorem conf_at (x0 x1 : Vec Ideal S8x56x56x30 .f32) (b : Fin 8) (r c : Fin 56) :
    k0_pay5 (F := Ideal) x0 x1 (ix3 b r c) = conf (chans x0 b r c) (chans x1 b r c) := by
  unfold k0_pay5
  simp only [mulf_apply, subf_apply]
  rw [shapeCast_abc1_abc_apply, shapeCast_abc1_abc_apply, slice4_last_apply 4 x0 _ b r c (0 : Fin 1) chObj rfl,
    slice4_last_apply 4 x1 _ b r c (0 : Fin 1) chObj rfl]
  rfl

/-- The indicator times the coordinate, confidence and class terms at cell `(b, r, c)`: each channel sum is a sum over
    the channels of the cell, each cut reads the channel its offset names. -/
theorem objTerm_at (x0 x1 : Vec Ideal S8x56x56x30 .f32) (b : Fin 8) (r c : Fin 56) :
    k0_pay6 (F := Ideal) x0 x1 (ix3 b r c)
      = obj (x1 (ix4 b r c chObj)) * objTerm (chans x0 b r c) (chans x1 b r c) := by
  unfold k0_pay6
  simp only [mulf_apply, addf_apply, broadcast_apply]
  rw [mask_at, conf_at, sum4_last_apply, sum4_last_apply, sum4_last_apply]
  simp only [mulf_apply, subf_apply, sqrt_at, slice4_last_eq]
  rfl

/-- The complement of the indicator at cell `(b, r, c)`. -/
theorem noobj_at (x1 : Vec Ideal S8x56x56x30 .f32) (b : Fin 8) (r c : Fin 56) :
    k0_pay4 (F := Ideal) x1 (ix3 b r c) = Ideal.ofBits .f32 0x3F800000#32 - obj (x1 (ix4 b r c chObj)) := by
  unfold k0_pay4
  simp only [subf_apply, broadcast_apply]
  rw [mask_at]
  rfl

/-- A POINT'S EFFECT: the accumulator's entry becomes its previous value plus the block pair's total loss: the cells'
    losses summed along columns, then rows, then the 8 images. -/
theorem step_apply (x0 x1 : Vec Ideal S8x56x56x30 .f32) (acc : Vec Ideal S1x1 .f32) (i : S1x1.Idx) :
    step (F := Ideal) x0 x1 acc i = acc i + total x0 x1 := by
  obtain ⟨u, v, rfl⟩ : ∃ (u v : Fin 1), i = ix2 u v := ⟨i 0, i 1, eq_ix2 i⟩
  unfold step k0_pay1
  simp only [shapeCast_self, addf_apply, broadcast_apply]
  refine congrArg (acc (ix2 u v) + ·) ?_
  unfold extractAt
  rw [show (fun a => (⟨(![0, 0] : Fin 2 → Nat) a, inpos_S1x1_p0_0 a⟩ : Fin (S1x1.size a))) = ix2 (0 : Fin 1) (0 : Fin 1) from
    funext fun a => by match a with | ⟨0, _⟩ => rfl | ⟨1, _⟩ => rfl]
  rw [shapeCast_a_1a_apply, sum2_last_apply]
  unfold total
  refine Finset.sum_congr rfl fun b _ => ?_
  rw [shapeCast_a_1a_apply, sum2_last_apply]
  refine Finset.sum_congr rfl fun r _ => ?_
  rw [sum3_last_apply]
  refine Finset.sum_congr rfl fun c _ => ?_
  simp only [addf_apply, mulf_apply, broadcast_apply]
  rw [objTerm_at, noobj_at, conf_at]
  rfl

end Cert.KernelIdeal.Accum

end
-- ==== Proof.KernelLoss.lean ====
/-
  The kernel's result is the loss.

  Over the extended reals a point adds its block pair's total to the accumulator, so after point n the accumulator's
  entry is zero plus the totals of points 0 .. n (addition of extended reals is associative).  The block a window
  holds at point t is images 8t .. 8t+7 of its argument array, that is the specification's group t.  So after the
  last point the entry is zero plus the sum of the 32 groups' totals, which is zero plus the total over all 256
  images; divided by 256 it is the loss.
-/
import proofs.«103663_j23089744183399_1_alg».proof.Proof.Result
import proofs.«103663_j23089744183399_1_alg».proof.Proof.BlockLoss

noncomputable section

open Idealize.ShloMosaic Idealize.ShloMosaic.TcCoe Idealize.SL.Sem Idealize.ShloMosaic.ValueIdx

namespace Cert.KernelIdeal.Accum

open Cert.KernelIdeal Cert.KernelIdeal.Gen Cert.CellLoss

variable (m : (ℓ : Loc nD τ sig) → Buf (Elt Ideal) ℓ)

/-- The predictions' and the targets' block at point `t`, at their literal type. -/
abbrev blkP (c : Dev nD) (t : Fin cfg0.N) : Vec Ideal S8x56x56x30 .f32 := iblk m c 0 t
abbrev blkT (c : Dev nD) (t : Fin cfg0.N) : Vec Ideal S8x56x56x30 .f32 := iblk m c 1 t

/-- Both input windows advance one block of 8 images per point and never move on the other axes. -/
theorem block_index : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0))

/-- The predictions' block at point `t` is group `t` of the first argument: both read image `8t + b`. -/
theorem blkP_eq_group (c : Dev nD) (t : Fin cfg0.N) :
    blkP m c t = group (m ((c : Thread nD τ).loc main_arg0)) (t.cast N_0) := by
  funext j
  unfold blkP iblk
  rw [View.read_apply]
  show V m c main_arg0 (((cfg0.win 0).blk t).view.emb j) = m ((c : Thread nD τ).loc main_arg0) _
  refine congrArg (m ((c : Thread nD τ).loc main_arg0)) (funext fun a => Fin.ext ?_)
  obtain ⟨⟨e0, e1, e2, e3⟩, -⟩ := block_index t
  match a with
  | ⟨0, _⟩ => show win0_0.index t 0 * 8 + 1 * (j 0).val = 8 * t.val + (j 0).val; rw [e0]; omega
  | ⟨1, _⟩ => show win0_0.index t 1 * 56 + 1 * (j 1).val = (j 1).val; rw [e1]; omega
  | ⟨2, _⟩ => show win0_0.index t 2 * 56 + 1 * (j 2).val = (j 2).val; rw [e2]; omega
  | ⟨3, _⟩ => show win0_0.index t 3 * 30 + 1 * (j 3).val = (j 3).val; rw [e3]; omega

/-- The targets' block at point `t` is group `t` of the second argument. -/
theorem blkT_eq_group (c : Dev nD) (t : Fin cfg0.N) :
    blkT m c t = group (m ((c : Thread nD τ).loc main_arg1)) (t.cast N_0) := by
  funext j
  unfold blkT iblk
  rw [View.read_apply]
  show V m c main_arg1 (((cfg0.win 1).blk t).view.emb j) = m ((c : Thread nD τ).loc main_arg1) _
  refine congrArg (m ((c : Thread nD τ).loc main_arg1)) (funext fun a => Fin.ext ?_)
  obtain ⟨-, ⟨e0, e1, e2, e3⟩⟩ := block_index t
  match a with
  | ⟨0, _⟩ => show win0_1.index t 0 * 8 + 1 * (j 0).val = 8 * t.val + (j 0).val; rw [e0]; omega
  | ⟨1, _⟩ => show win0_1.index t 1 * 56 + 1 * (j 1).val = (j 1).val; rw [e1]; omega
  | ⟨2, _⟩ => show win0_1.index t 2 * 56 + 1 * (j 2).val = (j 2).val; rw [e2]; omega
  | ⟨3, _⟩ => show win0_1.index t 3 * 30 + 1 * (j 3).val = (j 3).val; rw [e3]; omega

/-- The accumulator starts at the extended real the zero word denotes. -/
theorem zero_entry (i : S1x1.Idx) : (zeroAcc (F := Ideal)) i = Ideal.ofBits .f32 0x00000000#32 := by
  unfold zeroAcc k0_pay2
  simp only [shapeCast_self, broadcast_apply]
  rfl

/-- After point `n` the accumulator's entry is zero plus the totals of the block pairs of points `0 .. n`. -/
theorem accAfter_apply (c : Dev nD) : ∀ (n : ℕ) (h : n < cfg0.N) (i : S1x1.Idx),
    accAfter m c n h i = Ideal.ofBits .f32 0x00000000#32
      + ∑ t : Fin (n + 1), total (blkP m c ⟨t.val, by have := t.isLt; omega⟩) (blkT m c ⟨t.val, by have := t.isLt; omega⟩)
  | 0, h, i => by
    show step (blkP m c ⟨0, h⟩) (blkT m c ⟨0, h⟩) zeroAcc i = _
    rw [step_apply, zero_entry, Fin.sum_univ_one]
    rfl
  | n + 1, h, i => by
    show step (blkP m c ⟨n + 1, h⟩) (blkT m c ⟨n + 1, h⟩) (accAfter m c n (Nat.lt_of_succ_lt h)) i = _
    rw [step_apply, accAfter_apply c n, Fin.sum_univ_castSucc (n := n + 1), add_assoc]
    rfl

/-- THE KERNEL'S RESULT is the loss of its two arguments. -/
theorem result_apply (c : Dev nD) (i : S_.Idx) :
    result m c i = loss (m ((c : Thread nD τ).loc main_arg0)) (m ((c : Thread nD τ).loc main_arg1)) := by
  unfold result loss
  show Ideal.div (finalAcc m c _) (Ideal.ofBits .f32 0x43800000#32) = _
  rw [finalAcc, accAfter_apply, total_groups]
  refine congrArg (fun s => Ideal.div (Ideal.ofBits .f32 0x00000000#32 + s) (Ideal.ofBits .f32 0x43800000#32)) ?_
  refine Finset.sum_congr rfl fun g _ => ?_
  rw [blkP_eq_group, blkT_eq_group]
  rfl

end Cert.KernelIdeal.Accum

end
-- ==== Proof.RefValue.lean ====
/-
  The reference, read as the specification.

  The reference computes, for all 256 images at once, the same indicator, confidence error, coordinate and class sums
  per cell, then sums the cells' losses over images, rows and columns in one reduction from zero and divides by 256.
  Each of its per-cell sums starts from a zero, which adds nothing.  Its convert of the comparison bit reads the bit
  unsigned; the specification's indicator is that number.
-/
import proofs.«103663_j23089744183399_1_alg».proof.Proof.Gen.ReferenceIdeal.Read
import proofs.«103663_j23089744183399_1_alg».proof.Proof.Spec
import proofs.«103663_j23089744183399_1_alg».proof.Proof.Layout

noncomputable section

open Idealize.ShloMosaic Idealize.ShloMosaic.ValueIdx

namespace Cert.ReferenceIdeal.RefValue

open Cert.ReferenceIdeal Cert.ReferenceIdeal.Gen Cert.ReferenceIdeal.Read Cert.CellLoss

/-- The objectness channel of cell `(b, r, c)`, through the cut at channel 4 and the cast that forgets the unit axis. -/
theorem idx_obj (b : Fin 256) (r c : Fin 56) : idx_main_v0 (idx_main_v1 (ix3 b r c)) = ix4 b r c chObj :=
  funext fun a => Fin.ext (by
    have hr := r.isLt; have hc := c.isLt; have hb := b.isLt
    match a with
    | ⟨0, _⟩ => show ((b.val * 56 + r.val) * 56 + c.val) / 3136 = b.val; omega
    | ⟨1, _⟩ => show ((b.val * 56 + r.val) * 56 + c.val) / 56 % 56 = r.val; omega
    | ⟨2, _⟩ => show ((b.val * 56 + r.val) * 56 + c.val) / 1 % 56 = c.val; omega
    | ⟨3, _⟩ => rfl)

theorem idx_obj_p (b : Fin 256) (r c : Fin 56) : idx_main_v22 (idx_main_v23 (ix3 b r c)) = ix4 b r c chObj := idx_obj b r c
theorem idx_obj_t (b : Fin 256) (r c : Fin 56) : idx_main_v24 (idx_main_v25 (ix3 b r c)) = ix4 b r c chObj := idx_obj b r c

/-- Channel `0 + k` of cell `(b, r, c)`, through the cut at channel 0 and the sum over its two channels. -/
theorem idx_xy_p (b : Fin 256) (r c : Fin 56) (k : Fin 2) : idx_main_v7 (idx_main_v11 (ix3 b r c) k) = ix4 b r c (chXY k) :=
  funext fun a => Fin.ext (by match a with | ⟨0, _⟩ => rfl | ⟨1, _⟩ => rfl | ⟨2, _⟩ => rfl | ⟨3, _⟩ => exact (Nat.zero_add _).symm)
theorem idx_xy_t (b : Fin 256) (r c : Fin 56) (k : Fin 2) : idx_main_v8 (idx_main_v11 (ix3 b r c) k) = ix4 b r c (chXY k) :=
  funext fun a => Fin.ext (by match a with | ⟨0, _⟩ => rfl | ⟨1, _⟩ => rfl | ⟨2, _⟩ => rfl | ⟨3, _⟩ => exact (Nat.zero_add _).symm)

/-- Channel `2 + k`, through the cut at channel 2. -/
theorem idx_wh_p (b : Fin 256) (r c : Fin 56) (k : Fin 2) : idx_main_v12 (idx_main_v18 (ix3 b r c) k) = ix4 b r c (chWH k) :=
  funext fun a => Fin.ext (by match a with | ⟨0, _⟩ => rfl | ⟨1, _⟩ => rfl | ⟨2, _⟩ => rfl | ⟨3, _⟩ => rfl)
theorem idx_wh_t (b : Fin 256) (r c : Fin 56) (k : Fin 2) : idx_main_v14 (idx_main_v18 (ix3 b r c) k) = ix4 b r c (chWH k) :=
  funext fun a => Fin.ext (by match a with | ⟨0, _⟩ => rfl | ⟨1, _⟩ => rfl | ⟨2, _⟩ => rfl | ⟨3, _⟩ => rfl)

/-- Channel `5 + k`, through the cut at channel 5. -/
theorem idx_cls_p (b : Fin 256) (r c : Fin 56) (k : Fin 25) : idx_main_v28 (idx_main_v32 (ix3 b r c) k) = ix4 b r c (chCls k) :=
  funext fun a => Fin.ext (by match a with | ⟨0, _⟩ => rfl | ⟨1, _⟩ => rfl | ⟨2, _⟩ => rfl | ⟨3, _⟩ => rfl)
theorem idx_cls_t (b : Fin 256) (r c : Fin 56) (k : Fin 25) : idx_main_v29 (idx_main_v32 (ix3 b r c) k) = ix4 b r c (chCls k) :=
  funext fun a => Fin.ext (by match a with | ⟨0, _⟩ => rfl | ⟨1, _⟩ => rfl | ⟨2, _⟩ => rfl | ⟨3, _⟩ => rfl)

/-- The reference's per-cell array at cell `(b, r, c)` is the cell's loss. -/
theorem cell_at (P T : (⟨S256x56x56x30, .f32⟩ : BufTy).Contents (Elt Ideal)) (b : Fin 256) (r c : Fin 56) :
    val_main_v39 (F := Ideal) P T (ix3 b r c) = cell (chans P b r c) (chans T b r c) := by
  simp only [val_main_v39_apply, val_main_v35_apply, val_main_v38_apply, val_main_v4_apply, val_main_v3_apply, val_main_v1_apply, val_main_v0_apply, val_main_v2_apply, val_main_cst_apply, val_main_v6_apply, val_main_v5_apply, val_main_cst_0_apply, val_main_v34_apply, val_main_v33_apply, val_main_v21_apply, val_main_v20_apply, val_main_cst_3_apply, val_main_v19_apply, val_main_v11_apply, val_main_cst_1_apply, val_main_v10_apply, val_main_v9_apply, val_main_v7_apply, val_main_v8_apply, val_main_v18_apply, val_main_cst_2_apply, val_main_v17_apply, val_main_v16_apply, val_main_v13_apply, val_main_v12_apply, val_main_v15_apply, val_main_v14_apply, val_main_v27_apply, val_main_v26_apply, val_main_v23_apply, val_main_v22_apply, val_main_v25_apply, val_main_v24_apply, val_main_v32_apply, val_main_cst_4_apply, val_main_v31_apply, val_main_v30_apply, val_main_v28_apply, val_main_v29_apply, val_main_v37_apply, val_main_v36_apply, val_main_cst_5_apply,
    idx_obj, idx_obj_p, idx_obj_t, idx_xy_p, idx_xy_t, idx_wh_p, idx_wh_t, idx_cls_p, idx_cls_t,
    Ideal.ofBits_def, Ideal.ofBits_zero_f32, zero_add]
  rfl

/-- THE REFERENCE'S RESULT is the loss of its two arguments. -/
theorem result_eq (P T : (⟨S256x56x56x30, .f32⟩ : BufTy).Contents (Elt Ideal)) (i : S_.Idx) :
    val_main_v41 (F := Ideal) P T i = loss P T := by
  rw [val_main_v41_apply, val_main_v40_apply, val_main_cst_6_apply, val_main_cst_7_apply,
    sum_idx3 (val_main_v39 (F := Ideal) P T)]
  simp only [cell_at]
  rfl

end Cert.ReferenceIdeal.RefValue

end
-- ==== Proof.lean ====
/-
  A detection loss summed over a batch, computed block by block, against the same loss computed at once.

  Both programs take predictions and targets of shape [256, 56, 56, 30]: 256 images, a 56 x 56 grid of cells, 30
  channels per cell.  A cell's loss charges an object cell (target objectness equal to 1) five times its squared
  coordinate errors (the box extents compared through square roots) plus its squared confidence error plus its squared
  class errors, and any other cell half its squared confidence error; the result is the sum of the cells' losses
  divided by 256.

  The reference forms the cells' losses of all 256 images and sums them in one reduction.  The kernel walks 32 grid
  points; at point t it loads images 8t .. 8t+7, sums their cells' losses along columns, rows and images, and adds the
  sum to a one-entry accumulator that it zeroes at the first point and copies to its output at the last; the division
  by 256 follows the kernel.  The two differ only in how the sum is grouped and in how the comparison bit becomes a
  number (widened and read signed in the kernel, read unsigned in the reference: 0 or 1 either way).  Over the extended
  reals addition is commutative and associative, so regrouping a finite sum changes nothing, whatever the inputs:
  the precondition is not used.

  The frames of the two kernel programs are the generated ones; the reference's frame is its generated run with the
  result dropped.  The ideal pass rewrote nothing, so there is nothing to preserve.
-/
import proofs.«103663_j23089744183399_1_alg».proof.Defs
import proofs.«103663_j23089744183399_1_alg».proof.Proof.Gen.Kernel
import proofs.«103663_j23089744183399_1_alg».proof.Proof.Gen.Kernel.Skeleton
import proofs.«103663_j23089744183399_1_alg».proof.Proof.Gen.Kernel.Launch
import proofs.«103663_j23089744183399_1_alg».proof.Proof.Gen.Kernel.Points
import proofs.«103663_j23089744183399_1_alg».proof.Proof.Gen.Kernel.Frame
import proofs.«103663_j23089744183399_1_alg».proof.Proof.Gen.KernelIdeal
import proofs.«103663_j23089744183399_1_alg».proof.Proof.Gen.KernelIdeal.Skeleton
import proofs.«103663_j23089744183399_1_alg».proof.Proof.Gen.KernelIdeal.Launch
import proofs.«103663_j23089744183399_1_alg».proof.Proof.Gen.KernelIdeal.Points
import proofs.«103663_j23089744183399_1_alg».proof.Proof.Gen.KernelIdeal.Frame
import proofs.«103663_j23089744183399_1_alg».proof.Proof.Gen.ReferenceIdeal
import proofs.«103663_j23089744183399_1_alg».proof.Proof.Gen.ReferenceIdeal.Run
import proofs.«103663_j23089744183399_1_alg».proof.Proof.Gen.ReferenceIdeal.Read
import proofs.«103663_j23089744183399_1_alg».proof.Proof.Gen.Pre_finite_inputs
import proofs.«103663_j23089744183399_1_alg».proof.Proof.KernelLoss
import proofs.«103663_j23089744183399_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the two kernel programs. -/
theorem preserves : Cert.preserves_Kernel_KernelIdeal := trivial

/-- Over the extended reals, from memories that agree on the two arguments, the kernel ends with its result at the loss
    of the arguments and so does the reference: the 32 groups' totals sum to the total over all 256 images. -/
theorem algebraic : Cert.algebraic_KernelIdeal_ReferenceIdeal := by
  intro m ρ m' ρ' _ hagree
  refine ⟨fun c => Cert.KernelIdeal.Accum.result m c, Cert.KernelIdeal.Accum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2]
  funext i
  rw [Cert.ReferenceIdeal.RefValue.result_eq]
  exact (Cert.KernelIdeal.Accum.result_apply m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
